-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S262144 : Shape := ⟨1, ![262144]⟩
abbrev S64 : Shape := ⟨1, ![64]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S262144 : S_.BroadcastsInDim S262144 (![] : Fin 0 → Fin S262144.rank)
  reducesTo_S262144_S_d0 : S262144.ReducesTo [0] S_
  bcast_S_S64 : S_.BroadcastsInDim S64 (![] : Fin 0 → Fin S64.rank)
  reducesTo_S64_S_d0 : S64.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S262144 .f32) (main_arg2 : FVec F S64 .f32) (main_arg3 : FVec F S4096x4096 .f32) (main_arg4 : FVec F S4096 .f32) (main_arg5 : IVec S4096x4096 32) (main_arg6 : IVec S4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S8192x4096 : Shape := ⟨2, ![8192, 4096]⟩
abbrev S262144 : Shape := ⟨1, ![262144]⟩
abbrev S64 : Shape := ⟨1, ![64]⟩
abbrev S4096x4096 : Shape := ⟨2, ![4096, 4096]⟩
abbrev S4096 : Shape := ⟨1, ![4096]⟩
abbrev S_ : Shape := ⟨0, ![]⟩
abbrev S4096x4096x1 : Shape := ⟨3, ![4096, 4096, 1]⟩
abbrev S4096x1 : Shape := ⟨2, ![4096, 1]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 31
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S262144, .f32⟩
  | .hbm, ⟨2, _⟩ => ⟨S64, .f32⟩
  | .hbm, ⟨3, _⟩ => ⟨S4096x4096, .f32⟩
  | .hbm, ⟨4, _⟩ => ⟨S4096, .f32⟩
  | .hbm, ⟨5, _⟩ => ⟨S4096x4096, .i32⟩
  | .hbm, ⟨6, _⟩ => ⟨S4096, .i32⟩
  | .hbm, ⟨7, _⟩ => ⟨S_, .i32⟩
  | .hbm, ⟨8, _⟩ => ⟨S4096x4096, .i32⟩
  | .hbm, ⟨9, _⟩ => ⟨S4096x4096, .i1⟩
  | .hbm, ⟨10, _⟩ => ⟨S_, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x4096x1, .i32⟩
  | .hbm, ⟨15, _⟩ => ⟨S4096x4096, .f32⟩
  | .hbm, ⟨16, _⟩ => ⟨S4096x4096, .f32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096x1, .i32⟩
  | .hbm, ⟨25, _⟩ => ⟨S4096, .f32⟩
  | .hbm, ⟨26, _⟩ => ⟨S4096, .f32⟩
  | .hbm, ⟨27, _⟩ => ⟨S1x4096, .f32⟩
  | .hbm, ⟨28, _⟩ => ⟨S8192x4096, .bf16⟩
  | .hbm, ⟨29, _⟩ => ⟨S4096x4096, .bf16⟩
  | .hbm, ⟨30, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S4096 : S_.BroadcastsInDim S4096 (![] : Fin 0 → Fin S4096.rank)
  bcast_S4096_S4096x1_0 : S4096.BroadcastsInDim S4096x1 (![0] : Fin 1 → Fin S4096x1.rank)
  shapeCasts_S4096_S1x4096 : S4096.ShapeCasts S1x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  gather_S262144_S4096x4096x1_S4096x4096_n_0_n_n_0_2_1_wf : GatherDims.WF S262144 S4096x4096x1 S4096x4096 [] [0] [] [0] [] 2 ![1]
  gather_S64_S4096x1_S4096_n_0_n_n_0_1_1_wf : GatherDims.WF S64 S4096x1 S4096 [] [0] [] [0] [] 1 ![1]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S262144_S4096x4096x1_S4096x4096_n_0_n_n_0_2_1 : GatherDims S262144 S4096x4096x1 S4096x4096 where
  offsetDims := []
  collapsedSliceDims := [0]
  operandBatchingDims := []
  startIndicesBatchingDims := []
  startIndexMap := [0]
  indexVectorDim := 2
  sliceSizes := ![1]
  wf := gather_S262144_S4096x4096x1_S4096x4096_n_0_n_n_0_2_1_wf
def gather_S64_S4096x1_S4096_n_0_n_n_0_1_1 : GatherDims S64 S4096x1 S4096 where
  offsetDims := []
  collapsedSliceDims := [0]
  operandBatchingDims := []
  startIndicesBatchingDims := []
  startIndexMap := [0]
  indexVectorDim := 1
  sliceSizes := ![1]
  wf := gather_S64_S4096x1_S4096_n_0_n_n_0_1_1_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v17) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S262144 : Shape := ⟨1, ![262144]⟩
abbrev S64 : Shape := ⟨1, ![64]⟩
abbrev S4096x4096 : Shape := ⟨2, ![4096, 4096]⟩
abbrev S4096 : Shape := ⟨1, ![4096]⟩
abbrev S_ : Shape := ⟨0, ![]⟩
abbrev S4096x4096x1 : Shape := ⟨3, ![4096, 4096, 1]⟩
abbrev S4096x1 : Shape := ⟨2, ![4096, 1]⟩
abbrev S1x4096 : Shape := ⟨2, ![1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S262144, .f32⟩
  | .hbm, ⟨2, _⟩ => ⟨S64, .f32⟩
  | .hbm, ⟨3, _⟩ => ⟨S4096x4096, .f32⟩
  | .hbm, ⟨4, _⟩ => ⟨S4096, .f32⟩
  | .hbm, ⟨5, _⟩ => ⟨S4096x4096, .i32⟩
  | .hbm, ⟨6, _⟩ => ⟨S4096, .i32⟩
  | .hbm, ⟨7, _⟩ => ⟨S_, .i32⟩
  | .hbm, ⟨8, _⟩ => ⟨S4096x4096, .i32⟩
  | .hbm, ⟨9, _⟩ => ⟨S4096x4096, .i1⟩
  | .hbm, ⟨10, _⟩ => ⟨S_, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x4096x1, .i32⟩
  | .hbm, ⟨15, _⟩ => ⟨S4096x4096, .f32⟩
  | .hbm, ⟨16, _⟩ => ⟨S4096x4096, .f32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096x1, .i32⟩
  | .hbm, ⟨25, _⟩ => ⟨S4096, .f32⟩
  | .hbm, ⟨26, _⟩ => ⟨S4096, .f32⟩
  | .hbm, ⟨27, _⟩ => ⟨S8192x4096, .f32⟩
  | .hbm, ⟨28, _⟩ => ⟨S1x4096, .f32⟩
  | .hbm, ⟨29, _⟩ => ⟨S8192x4096, .f32⟩
  | .hbm, ⟨30, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S262144_S4096x4096x1_S4096x4096_n_0_n_n_0_2_1_wf : GatherDims.WF S262144 S4096x4096x1 S4096x4096 [] [0] [] [0] [] 2 ![1]
  gather_S64_S4096x1_S4096_n_0_n_n_0_1_1_wf : GatherDims.WF S64 S4096x1 S4096 [] [0] [] [0] [] 1 ![1]
  dot_S8192x4096_S4096x4096_S8192x4096_1_1_0_0_n_n_wf : DotDims.WF S8192x4096 S4096x4096 S8192x4096 [1] [1] [0] [0] [] []

variable [Facts₀]

def gather_S262144_S4096x4096x1_S4096x4096_n_0_n_n_0_2_1 : GatherDims S262144 S4096x4096x1 S4096x4096 where
  offsetDims := []
  collapsedSliceDims := [0]
  operandBatchingDims := []
  startIndicesBatchingDims := []
  startIndexMap := [0]
  indexVectorDim := 2
  sliceSizes := ![1]
  wf := gather_S262144_S4096x4096x1_S4096x4096_n_0_n_n_0_2_1_wf
def gather_S64_S4096x1_S4096_n_0_n_n_0_1_1 : GatherDims S64 S4096x1 S4096 where
  offsetDims := []
  collapsedSliceDims := [0]
  operandBatchingDims := []
  startIndicesBatchingDims := []
  startIndexMap := [0]
  indexVectorDim := 1
  sliceSizes := ![1]
  wf := gather_S64_S4096x1_S4096_n_0_n_n_0_1_1_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid point's body leaves behind, as a pure function of what it loads.

  The body keeps a running block in a scratch buffer. At the first step of a run over the contraction axis it stores the
  zero block and then adds the step's product onto it; at every later step it adds the step's product onto what the
  step before left; at the last step it also stores the running block plus the bias row into the output block. Each
  statement below says that what a case's run leaves in the scratch (or in the output block) is the body's payload term
  of the blocks it loaded: the accumulation payload `acc + x · wᵀ` for the scratch, the closing payload `acc + b` (the
  bias row spread over the rows) for the output.
-/
import proofs.«111824_j30528627540665_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offset of a store that covers its whole buffer. -/
theorem hz : (![0, 0] : Fin 2 → Nat) = fun _ => 0 := funext fun a => by fin_cases a <;> rfl

/-- A middle step: the scratch ends at the accumulation payload over what the step before left in it. -/
theorem scratch_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread, View.ld_unit_zero (S := S1024x1024) hz]

/-- The last step leaves the scratch as a middle step does. -/
theorem scratch_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S1024x1024) hz]

/-- The last step's output block: the closing payload of the scratch as this step leaves it and of the bias row. -/
theorem out_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.ld_unit_zero (S := S1024x1024) hz, View.ld_unit_zero (S := S1x1024) hz, View.readCov_unit_zero (S := S1024x1024) _ hz]

/-- The first step of a run: the zero block is stored, read back, and the step's product added onto it. -/
theorem scratch_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

end Cert.KernelIdeal.Pieces

end
-- ==== Proof.Payload.lean ====
/-
  The body's three payloads read at one entry, on the extended reals.

  * the zero block is `0` everywhere;
  * the accumulation payload at `(p, q)` is the carried entry plus `Σ l, x (p, l) · w (q, l)`: the matrix unit contracts
    the second axis of BOTH operands (a product with the transpose), into a zero accumulator;
  * the closing payload at `(p, q)` is the carried entry plus the bias row's entry `q`: the one-row block is spread over
    all rows.
  Changes of float format do not appear: on the extended reals they are the identity.
-/
import proofs.«111824_j30528627540665_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Payload

open Cert.KernelIdeal Cert.KernelIdeal.Gen

/-- The left operand's row is the output row. -/
theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- The left operand's column is the contraction index. -/
theorem lhs_col (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand's ROW is the output column: the product is with the transpose. -/
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- The right operand's column is the contraction index. -/
theorem rhs_col (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block product into a zero accumulator, at `(p, q)`: `Σ l, x (p, l) · w (q, l)`. -/
theorem blockProduct_apply (x w : FVec Ideal S1024x1024 .bf16) (p q : Fin 1024) :
    matmul (F := Ideal) dot_S1024x1024_S1024x1024_S1024x1024_1_1_0_0_n_n none x w (constant (F := Ideal) S1024x1024 .f32 0x00000000#32) (ix2 p q)
      = ∑ l : Fin 1024, x (ix2 p l) * w (ix2 q l) := by
  simp only [matmul]
  rw [Ideal.matmul_constant_zero_apply, ← Equiv.sum_comp (contrEquiv1 dot_S1024x1024_S1024x1024_S1024x1024_1_1_0_0_n_n 1024 rfl rfl).symm]
  refine Finset.sum_congr rfl fun l _ => ?_
  have hl := contrEquiv1_symm_val dot_S1024x1024_S1024x1024_S1024x1024_1_1_0_0_n_n 1024 rfl rfl l
  have el : dot_S1024x1024_S1024x1024_S1024x1024_1_1_0_0_n_n.lhsIdx (ix2 p q) ((contrEquiv1 dot_S1024x1024_S1024x1024_S1024x1024_1_1_0_0_n_n 1024 rfl rfl).symm l) = ix2 p l := funext fun a => Fin.ext (by
    match a with
    | ⟨0, _⟩ => exact lhs_row _ _
    | ⟨1, _⟩ => exact (lhs_col _ _).trans hl)
  have er : dot_S1024x1024_S1024x1024_S1024x1024_1_1_0_0_n_n.rhsIdx (ix2 p q) ((contrEquiv1 dot_S1024x1024_S1024x1024_S1024x1024_1_1_0_0_n_n 1024 rfl rfl).symm l) = ix2 q l := funext fun a => Fin.ext (by
    match a with
    | ⟨0, _⟩ => exact rhs_row _ _
    | ⟨1, _⟩ => exact (rhs_col _ _).trans hl)
  rw [el, er]

/-- The zero block is zero at every entry. -/
theorem zero_apply (j : S1024x1024.Idx) : k0_pay1 (F := Ideal) j = 0 := by
  unfold k0_pay1
  simp only [shapeCast_self]
  show Ideal.ofBits .f32 0x00000000#32 = 0
  exact Ideal.ofBits_zero_f32

/-- The accumulation payload at `(p, q)`: the carried entry plus the step's product there. -/
theorem step_apply (acc : Vec Ideal S1024x1024 .f32) (x w : Vec Ideal S1024x1024 .bf16) (p q : Fin 1024) :
    k0_pay2 acc x w (ix2 p q) = acc (ix2 p q) + ∑ l : Fin 1024, x (ix2 p l) * w (ix2 q l) := by
  unfold k0_pay2
  simp only [shapeCast_self]
  show acc (ix2 p q) + matmul (F := Ideal) dot_S1024x1024_S1024x1024_S1024x1024_1_1_0_0_n_n none x w (constant (F := Ideal) S1024x1024 .f32 0x00000000#32) (ix2 p q) = _
  rw [blockProduct_apply]

/-- The closing payload at `(p, q)`: the carried entry plus the bias row's entry `q`. -/
theorem emit_apply (acc : Vec Ideal S1024x1024 .f32) (b : Vec Ideal S1x1024 .f32) (p q : Fin 1024) :
    k0_pay3 acc b (ix2 p q) = acc (ix2 p q) + b (ix2 (0 : Fin 1) q) := by
  unfold k0_pay3
  simp only [shapeCast_self]
  show acc (ix2 p q) + broadcastTo S1024x1024 (b : S1x1024.Idx → Ideal .f32) broadcasts_S1x1024_S1024x1024 (ix2 p q) = _
  rw [broadcastTo_1b_ab_apply]

end Cert.KernelIdeal.Payload

end
-- ==== Proof.BlockSum.lean ====
/-
  A running sum over four stretches of a long sum.

  `part D k` is what an accumulator holds after step `k` when it is set to zero before step `0` and step `j` adds `D j`
  onto it: `0 + D 0`, then `+ D 1`, … added left to right. When `D j` is the sum of the `j`-th stretch of 1024 consecutive
  terms of a sequence, the accumulator after step `3` holds the sum of the first 4096 terms. Only associativity of the
  addition and `0 + a = a` are used, so the law holds in every additive commutative monoid — on the extended reals too,
  infinite terms included.
-/
import Mathlib.Algebra.BigOperators.Fin
import Mathlib.Algebra.BigOperators.Intervals

namespace Cert.BlockSum

open Finset

variable {M : Type*} [AddCommMonoid M]

/-- The accumulator after step `k`: zero, then `D 0`, …, `D k` added one after the other. -/
def part (D : ℕ → M) : ℕ → M
  | 0 => 0 + D 0
  | k + 1 => part D k + D (k + 1)

theorem part_zero (D : ℕ → M) : part D 0 = 0 + D 0 := rfl

theorem part_succ (D : ℕ → M) (k : ℕ) : part D (k + 1) = part D k + D (k + 1) := rfl

/-- The sum of the first `m * n` terms, as `m` stretches of `n` terms. -/
theorem sum_range_blocks (m n : ℕ) (g : ℕ → M) :
    ∑ s ∈ range (m * n), g s = ∑ j ∈ range m, ∑ i ∈ range n, g (j * n + i) := by
  induction m with
  | zero => simp
  | succ m ih =>
    rw [Nat.succ_mul, sum_range_add, ih, sum_range_succ]

/-- Four stretches of 1024 terms, added left to right onto zero, are the sum of all 4096 terms. -/
theorem part_three_eq (g : ℕ → M) :
    part (fun k => ∑ l : Fin 1024, g (1024 * k + l.val)) 3 = ∑ s : Fin 4096, g s.val := by
  have hs : ∀ k : ℕ, (∑ l : Fin 1024, g (1024 * k + l.val)) = ∑ i ∈ range 1024, g (k * 1024 + i) := fun k => by
    rw [Fin.sum_univ_eq_sum_range (fun i => g (1024 * k + i)) 1024, Nat.mul_comm]
  rw [Fin.sum_univ_eq_sum_range g 4096, show (4096 : ℕ) = 4 * 1024 from rfl, sum_range_blocks 4 1024 g]
  simp only [part, hs, sum_range_succ, sum_range_zero, zero_add]

end Cert.BlockSum
-- ==== Proof.Spec.lean ====
/-
  The specification: a linear layer over the extended reals.

  For an input `x` of 8192 rows and 4096 features, a weight `W` of 4096 output rows and 4096 features, and a bias kept
  as one row `b`, the result at `(r, o)` is `Σ s, x (r, s) · W (o, s) + b (0, o)`: every output feature contracts the
  input row with ITS row of the weight (a product with the transpose), then adds its bias entry.
  The arrays are also read at natural-number coordinates (`at2`, zero outside the array), so that a block's entry
  `(1024·i + p, 1024·k + l)` can be named without carrying the bounds along.
-/
import Idealize.ShloMosaic.Lib.ValueIdx

noncomputable section

namespace Cert.Spec

open Idealize.ShloMosaic Idealize.ShloMosaic.ValueIdx

/-- A two-axis array read at natural-number coordinates: its entry inside the array, zero outside. -/
def at2 {a b : ℕ} (A : (⟨2, ![a, b]⟩ : Shape).Idx → EReal) (r s : ℕ) : EReal :=
  if h : r < a ∧ s < b then A (ix2 ⟨r, h.1⟩ ⟨s, h.2⟩) else 0

theorem at2_of_lt {a b : ℕ} (A : (⟨2, ![a, b]⟩ : Shape).Idx → EReal) {r s : ℕ} (hr : r < a) (hs : s < b) :
    at2 A r s = A (ix2 ⟨r, hr⟩ ⟨s, hs⟩) := dif_pos ⟨hr, hs⟩

/-- Inside the array, reading at a coordinate pair's values is reading at the pair. -/
theorem at2_val {a b : ℕ} (A : (⟨2, ![a, b]⟩ : Shape).Idx → EReal) (r : Fin a) (s : Fin b) :
    at2 A r.val s.val = A (ix2 r s) := at2_of_lt A r.isLt s.isLt

/-- The layer's result at row `r`, output feature `o`. -/
def linearAt (x : (⟨2, ![8192, 4096]⟩ : Shape).Idx → EReal) (W : (⟨2, ![4096, 4096]⟩ : Shape).Idx → EReal)
    (b : (⟨2, ![1, 4096]⟩ : Shape).Idx → EReal) (r o : ℕ) : EReal :=
  (∑ s : Fin 4096, at2 x r s.val * at2 W o s.val) + at2 b 0 o

/-- The layer's result array. -/
def linear (x : (⟨2, ![8192, 4096]⟩ : Shape).Idx → EReal) (W : (⟨2, ![4096, 4096]⟩ : Shape).Idx → EReal)
    (b : (⟨2, ![1, 4096]⟩ : Shape).Idx → EReal) : (⟨2, ![8192, 4096]⟩ : Shape).Idx → EReal :=
  fun i => linearAt x W b (i 0).val (i 1).val

/-- The result at an index of the array, over the arrays' own entries. -/
theorem linear_apply (x : (⟨2, ![8192, 4096]⟩ : Shape).Idx → EReal) (W : (⟨2, ![4096, 4096]⟩ : Shape).Idx → EReal)
    (b : (⟨2, ![1, 4096]⟩ : Shape).Idx → EReal) (r : Fin 8192) (o : Fin 4096) :
    linear x W b (ix2 r o) = (∑ s : Fin 4096, x (ix2 r s) * W (ix2 o s)) + b (ix2 (0 : Fin 1) o) := by
  show linearAt x W b r.val o.val = _
  unfold linearAt
  rw [at2_of_lt b (Nat.zero_lt_one) o.isLt]
  refine congrArg₂ (· + ·) (Finset.sum_congr rfl fun s _ => ?_) rfl
  rw [at2_val, at2_val]

end Cert.Spec

end
-- ==== Proof.Layer.lean ====
/-
  What the kernel's result array holds on the extended reals: the linear layer of the arrays the region is entered with.

  The grid is (8, 4, 4): point `t = 16·i + 4·j + k` works on rows `1024·i …` of the input, on rows `1024·j …` of the weight
  and on stretch `k` of the 4096 contracted features. Along `k` the scratch block carries a running sum: after step `k`
  its entry `(p, q)` is zero plus the products of stretches `0 … k`, added one after the other (`scratch_inv`, by
  induction on the point). At `k = 3` the output block is that running sum plus the bias entry, and four stretches of
  1024 terms are the whole contraction (`Cert.BlockSum.part_three_eq`), so block `(i, j)` of the result is block `(i, j)` of
  the layer. The 32 written blocks tile the array.
-/
import proofs.«111824_j30528627540665_1_alg».proof.Proof.Gen.KernelIdeal.Value
import proofs.«111824_j30528627540665_1_alg».proof.Proof.Pieces
import proofs.«111824_j30528627540665_1_alg».proof.Proof.Payload
import proofs.«111824_j30528627540665_1_alg».proof.Proof.BlockSum
import proofs.«111824_j30528627540665_1_alg».proof.Proof.Spec
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen Cert.Spec Cert.BlockSum

variable (m : (ℓ : Loc nD τ sig) → Buf (Elt Ideal) ℓ) (ρ : Dev nD → PrngReg)

/-- The three arrays the region reads, as it finds them: the input, the weight, the bias row. -/
abbrev xarr (c : Dev nD) : (⟨2, ![8192, 4096]⟩ : Shape).Idx → EReal := V m c main_v17
abbrev warr (c : Dev nD) : (⟨2, ![4096, 4096]⟩ : Shape).Idx → EReal := V m c main_v18
abbrev barr (c : Dev nD) : (⟨2, ![1, 4096]⟩ : Shape).Idx → EReal := V m c main_v16

/-- The blocks point `t` loads. -/
abbrev xblk (c : Dev nD) (t : Fin cfg0.N) : Vec Ideal S1024x1024 .bf16 := iblk m c 0 t
abbrev wblk (c : Dev nD) (t : Fin cfg0.N) : Vec Ideal S1024x1024 .bf16 := iblk m c 1 t
abbrev bblk (c : Dev nD) (t : Fin cfg0.N) : Vec Ideal S1x1024 .f32 := iblk m c 2 t

/-- The block indices of the four windows at point `t = 16·i + 4·j + k`: `(i, k)`, `(j, k)`, `(0, j)`, `(i, j)`. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The input block's entry `(p, l)` is the input's entry `(1024·i + p, 1024·k + l)`. -/
theorem xblk_apply (c : Dev nD) (t : Fin cfg0.N) (bi bj k : ℕ) (ht : t.val = 16 * bi + 4 * bj + k) (hbj : bj < 4) (hk : k < 4)
    (p l : Fin 1024) : xblk m c t (ix2 p l) = at2 (xarr m c) (1024 * bi + p.val) (1024 * k + l.val) := by
  have hN : t.val < 128 := lt_of_lt_of_eq t.isLt (show cfg0.N = 128 from N_0)
  obtain ⟨e0, e1, -⟩ := idx_facts t
  have hp := p.isLt
  have hl := l.isLt
  rw [at2_of_lt _ (by omega) (by omega)]
  unfold xblk iblk
  rw [View.read_apply]
  show V m c main_v17 _ = V m c main_v17 _
  congr 1
  funext a
  apply Fin.ext
  match a with
  | ⟨0, _⟩ => show win0_0.index t (0 : Fin 2) * 1024 + 1 * p.val = 1024 * bi + p.val; rw [e0]; omega
  | ⟨1, _⟩ => show win0_0.index t (1 : Fin 2) * 1024 + 1 * l.val = 1024 * k + l.val; rw [e1]; omega

/-- The weight block's entry `(q, l)` is the weight's entry `(1024·j + q, 1024·k + l)`. -/
theorem wblk_apply (c : Dev nD) (t : Fin cfg0.N) (bi bj k : ℕ) (ht : t.val = 16 * bi + 4 * bj + k) (hbj : bj < 4) (hk : k < 4)
    (q l : Fin 1024) : wblk m c t (ix2 q l) = at2 (warr m c) (1024 * bj + q.val) (1024 * k + l.val) := by
  have hN : t.val < 128 := lt_of_lt_of_eq t.isLt (show cfg0.N = 128 from N_0)
  obtain ⟨-, -, e2, e3, -⟩ := idx_facts t
  have hq := q.isLt
  have hl := l.isLt
  rw [at2_of_lt _ (by omega) (by omega)]
  unfold wblk iblk
  rw [View.read_apply]
  show V m c main_v18 _ = V m c main_v18 _
  congr 1
  funext a
  apply Fin.ext
  match a with
  | ⟨0, _⟩ => show win0_1.index t (0 : Fin 2) * 1024 + 1 * q.val = 1024 * bj + q.val; rw [e2]; omega
  | ⟨1, _⟩ => show win0_1.index t (1 : Fin 2) * 1024 + 1 * l.val = 1024 * k + l.val; rw [e3]; omega

/-- The bias block's entry `(0, q)` is the bias row's entry `1024·j + q`. -/
theorem bblk_apply (c : Dev nD) (t : Fin cfg0.N) (bi bj k : ℕ) (ht : t.val = 16 * bi + 4 * bj + k) (hbj : bj < 4) (hk : k < 4)
    (q : Fin 1024) : bblk m c t (ix2 (0 : Fin 1) q) = at2 (barr m c) 0 (1024 * bj + q.val) := by
  have hN : t.val < 128 := lt_of_lt_of_eq t.isLt (show cfg0.N = 128 from N_0)
  obtain ⟨-, -, -, -, e4, e5, -⟩ := idx_facts t
  have hq := q.isLt
  rw [at2_of_lt _ (by omega) (by omega)]
  unfold bblk iblk
  rw [View.read_apply]
  show V m c main_v16 _ = V m c main_v16 _
  congr 1
  funext a
  apply Fin.ext
  match a with
  | ⟨0, _⟩ => show win0_2.index t (0 : Fin 2) * 1 + 1 * (0 : Fin 1).val = 0; rw [e4]; rfl
  | ⟨1, _⟩ => show win0_2.index t (1 : Fin 2) * 1024 + 1 * q.val = 1024 * bj + q.val; rw [e5]; omega

/-- Stretch `k` of the contraction for row `p` of input block row `i` and row `q` of weight block row `j`. -/
def stepProd (c : Dev nD) (bi bj : ℕ) (p q : Fin 1024) (k : ℕ) : EReal :=
  ∑ l : Fin 1024, at2 (xarr m c) (1024 * bi + p.val) (1024 * k + l.val) * at2 (warr m c) (1024 * bj + q.val) (1024 * k + l.val)

/-- The product of the two blocks a point loads is that stretch. -/
theorem blocks_prod (c : Dev nD) (t : Fin cfg0.N) (bi bj k : ℕ) (ht : t.val = 16 * bi + 4 * bj + k) (hbj : bj < 4) (hk : k < 4)
    (p q : Fin 1024) : (∑ l : Fin 1024, xblk m c t (ix2 p l) * wblk m c t (ix2 q l)) = stepProd m c bi bj p q k :=
  Finset.sum_congr rfl fun l _ => by rw [xblk_apply m c t bi bj k ht hbj hk, wblk_apply m c t bi bj k ht hbj hk]

/-- At the first step of a run the scratch ends at zero plus the first stretch. -/
theorem scratch_first (c : Dev nD) (t : Fin cfg0.N) (h0 : t.val % 4 = 0) (bi bj : ℕ) (ht : t.val = 16 * bi + 4 * bj + 0) (hbj : bj < 4)
    (p q : Fin 1024) : (outsAt0 m c t.val t.isLt).2 (ix2 p q) = part (stepProd m c bi bj p q) 0 := by
  have h1 : ¬t.val % 4 = 3 := by omega
  rw [outsAt0_A m c t h0 h1]
  dsimp only
  refine (congrFun (Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xblk m c t) (wblk m c t) (bblk m c t)) (ix2 p q)).trans ?_
  rw [Payload.step_apply, Payload.zero_apply, part_zero, blocks_prod m c t bi bj 0 ht hbj (by omega)]

/-- At a later step it ends at what the step before left plus this step's stretch. -/
theorem scratch_next (c : Dev nD) (t : Fin cfg0.N) (h0 : ¬t.val % 4 = 0) (bi bj k : ℕ) (ht : t.val = 16 * bi + 4 * bj + (k + 1)) (hbj : bj < 4)
    (hk : k + 1 < 4) (p q : Fin 1024)
    (prev : (outsAt0 m c (t.val - 1) (Nat.lt_of_le_of_lt (Nat.sub_le _ _) t.isLt)).2 (ix2 p q) = part (stepProd m c bi bj p q) k) :
    (outsAt0 m c t.val t.isLt).2 (ix2 p q) = part (stepProd m c bi bj p q) (k + 1) := by
  by_cases h1 : t.val % 4 = 3
  · rw [outsAt0_C m c t h0 h1]
    dsimp only
    refine (congrFun (Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2) (ix2 p q)).trans ?_
    rw [Payload.step_apply, prev, part_succ, blocks_prod m c t bi bj (k + 1) ht hbj hk]
  · rw [outsAt0_B m c t h0 h1]
    dsimp only
    refine (congrFun (Pieces.scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (xblk m c t) (wblk m c t) (bblk m c t) (outsAt0 m c (t.val - 1) (Nat.lt_of_le_of_lt (Nat.sub_le _ _) t.isLt)).2) (ix2 p q)).trans ?_
    rw [Payload.step_apply, prev, part_succ, blocks_prod m c t bi bj (k + 1) ht hbj hk]

/-- THE RUNNING SUM. After point `16·i + 4·j + k` the scratch's entry `(p, q)` is zero plus stretches `0 … k` of the
    contraction of input row `1024·i + p` with weight row `1024·j + q`, added one after the other. -/
theorem scratch_inv (c : Dev nD) : ∀ (n : ℕ) (h : n < cfg0.N) (bi bj k : ℕ), n = 16 * bi + 4 * bj + k → bj < 4 → k < 4 →
    ∀ p q : Fin 1024, (outsAt0 m c n h).2 (ix2 p q) = part (stepProd m c bi bj p q) k := by
  intro n
  induction n with
  | zero =>
    intro h bi bj k hn hbj hk p q
    obtain rfl : k = 0 := by omega
    exact scratch_first m c ⟨0, h⟩ rfl bi bj hn hbj p q
  | succ n ih =>
    intro h bi bj k hn hbj hk p q
    cases k with
    | zero => exact scratch_first m c ⟨n + 1, h⟩ (by show (n + 1) % 4 = 0; omega) bi bj hn hbj p q
    | succ k =>
      exact scratch_next m c ⟨n + 1, h⟩ (by show ¬(n + 1) % 4 = 0; omega) bi bj k hn hbj hk p q
        (ih (Nat.lt_of_succ_lt h) bi bj k (by omega) hbj (by omega) p q)

/-- What the result array holds: the layer of the arrays the region finds. -/
abbrev result (c : Dev nD) : Buf (Elt Ideal) ((c : Thread nD τ).loc main_v19) := linear (xarr m c) (warr m c) (barr m c)

/-- The stretches of one output entry's contraction are stretches of ONE sequence of 4096 products. -/
theorem stepProd_eq (c : Dev nD) (bi bj : ℕ) (p q : Fin 1024) :
    stepProd m c bi bj p q
      = fun k => ∑ l : Fin 1024, (fun s => at2 (xarr m c) (1024 * bi + p.val) s * at2 (warr m c) (1024 * bj + q.val) s) (1024 * k + l.val) := rfl

/-- WHAT A WRITING POINT WRITES BACK: at `t = 16·i + 4·j + 3` the output block is the running sum after the fourth
    stretch plus the bias entry — block `(i, j)` of the layer. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  have h0 : ¬t.val % 4 = 0 := by omega
  have hN : t.val < 128 := lt_of_lt_of_eq t.isLt (show cfg0.N = 128 from N_0)
  obtain ⟨-, -, -, -, -, -, e6, e7⟩ := idx_facts t
  have ht : t.val = 16 * (t.val / 16) + 4 * (t.val / 4 % 4) + 3 := by omega
  have hbj : t.val / 4 % 4 < 4 := Nat.mod_lt _ (by decide)
  rw [Value.flushed3_C m c t h0 h1]
  funext j
  obtain ⟨p, q, rfl⟩ : ∃ (p q : Fin 1024), j = ix2 p q := ⟨j 0, j 1, eq_ix2 j⟩
  have hp := p.isLt
  have hq := q.isLt
  show out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2 (ix2 p q)
    = linearAt (xarr m c) (warr m c) (barr m c) ((((cfg0.win 3).blk t).view.emb (ix2 p q)) 0).val ((((cfg0.win 3).blk t).view.emb (ix2 p q)) 1).val
  have r0 : ((((cfg0.win 3).blk t).view.emb (ix2 p q)) 0).val = 1024 * (t.val / 16) + p.val := by
    show win0_3.index t (0 : Fin 2) * 1024 + 1 * p.val = _
    rw [e6]; omega
  have r1 : ((((cfg0.win 3).blk t).view.emb (ix2 p q)) 1).val = 1024 * (t.val / 4 % 4) + q.val := by
    show win0_3.index t (1 : Fin 2) * 1024 + 1 * q.val = _
    rw [e7]; omega
  rw [r0, r1]
  refine (congrFun (Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2) (ix2 p q)).trans ?_
  rw [Payload.emit_apply, Payload.step_apply,
    scratch_inv m c (t.val - 1) (Nat.lt_of_le_of_lt (Nat.sub_le _ _) t.isLt) (t.val / 16) (t.val / 4 % 4) 2 (by omega) hbj (by decide) p q,
    blocks_prod m c t (t.val / 16) (t.val / 4 % 4) 3 ht hbj (by decide), ← part_succ,
    bblk_apply m c t (t.val / 16) (t.val / 4 % 4) 3 ht hbj (by decide)]
  have whole := part_three_eq (fun s => at2 (xarr m c) (1024 * (t.val / 16) + p.val) s * at2 (warr m c) (1024 * (t.val / 4 % 4) + q.val) s)
  exact congrArg (· + at2 (barr m c) 0 (1024 * (t.val / 4 % 4) + q.val)) whole

/-- An index of the result array is in point `t`'s block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v19).slice (win0_3.rect t)).set ↔ _
  rw [View.set_slice_whole, Rect.mem_set_unit]
  exact Iff.rfl

/-- THE COVER: entry `(r, o)` of the result lies in the block written at the point `16·(r / 1024) + 4·(o / 1024) + 3`. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  let t : Fin cfg0.N := ⟨16 * ((i 0).val / 1024) + 4 * ((i 1).val / 1024) + 3, by rw [hN]; omega⟩
  have htv : t.val = 16 * ((i 0).val / 1024) + 4 * ((i 1).val / 1024) + 3 := rfl
  obtain ⟨-, -, -, -, -, -, e6, e7⟩ := idx_facts t
  refine ⟨t, (flush0_3 t).mpr (by rw [htv]; omega), ?_⟩
  rw [mem_blk]
  intro a
  match a with
  | ⟨0, _⟩ =>
    show win0_3.index t (0 : Fin 2) * 1024 ≤ (i 0).val ∧ (i 0).val < win0_3.index t (0 : Fin 2) * 1024 + 1024
    rw [e6, htv]; omega
  | ⟨1, _⟩ =>
    show win0_3.index t (1 : Fin 2) * 1024 ≤ (i 1).val ∧ (i 1).val < win0_3.index t (1 : Fin 2) * 1024 + 1024
    rw [e7, htv]; omega

/-- THE RESULT ARRAY after the run is the layer of the arrays the region finds. -/
theorem final (c : Dev nD) : (dats m 0 c).arrAt 3 cfg0.N = result m c :=
  (dats m 0 c).arrAt_eq_of_cover 3 (result m c) (flushed_eq m c) cover

/-- The run, read: the result array at the layer, every argument unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Layer

end
-- ==== Proof.HostPrefix.lean ====
/-
  What the kernel's host operations leave in the three arrays its region reads, on the extended reals.

  Before the region the program rebuilds the dense weight and the bias from the hashed tables exactly as the
  reference does (wrap a negative index, gather, multiply by the sign array), then changes the input's and the weight's
  float format, which on the extended reals is the identity, and lays the bias out as one row. So the region finds the
  input itself, the reference's weight stage, and the reference's bias row. The two programs print the same gather
  records; that they are one record is checked once here.
-/
import proofs.«111824_j30528627540665_1_alg».proof.Proof.Gen.KernelIdeal.Frame
import proofs.«111824_j30528627540665_1_alg».proof.Proof.Gen.ReferenceIdeal.Read
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx Idealize.ShloMosaic.StableHlo

namespace Cert.KernelIdeal.HostPrefix

open Cert.KernelIdeal Cert.KernelIdeal.Gen

variable (m : (ℓ : Loc nD τ sig) → Buf (Elt Ideal) ℓ)

/-- The weight table's gather is the same record in both programs. -/
theorem gatherW_eq : Cert.KernelIdeal.gather_S262144_S4096x4096x1_S4096x4096_n_0_n_n_0_2_1 = Cert.ReferenceIdeal.gather_S262144_S4096x4096x1_S4096x4096_n_0_n_n_0_2_1 := rfl
/-- The bias table's gather is the same record in both programs. -/
theorem gatherB_eq : Cert.KernelIdeal.gather_S64_S4096x1_S4096_n_0_n_n_0_1_1 = Cert.ReferenceIdeal.gather_S64_S4096x1_S4096_n_0_n_n_0_1_1 := rfl

/-- Narrowing the float format changes nothing on the extended reals. -/
theorem truncf_id {s : Shape} (y : FVec Ideal s .f32) (h : FTy.bf16.bits < FTy.f32.bits) :
    (truncf .bf16 y h : FVec Ideal s .bf16) = y := rfl

/-- The region finds the input as launched. -/
theorem x_eq (c : Dev nD) : (V m c main_v17 : S8192x4096.Idx → EReal) = (m ((c : Thread nD τ).loc main_arg0)) := by
  dsimp only [Gen.V, Gen.hostOps0]
  after_results
  rfl

/-- The region finds, as its weight, the reference's weight stage of the launched tables. -/
theorem w_eq (c : Dev nD) : (V m c main_v18 : S4096x4096.Idx → EReal)
    = Cert.ReferenceIdeal.Read.val_main_v7 (F := Ideal) (m ((c : Thread nD τ).loc main_arg1)) (m ((c : Thread nD τ).loc main_arg3)) (m ((c : Thread nD τ).loc main_arg5)) := by
  dsimp only [Gen.V, Gen.hostOps0]
  after_results
  refine (truncf_id _ _).trans ?_
  unfold ReferenceIdeal.Read.val_main_v7 ReferenceIdeal.Read.val_main_v6 ReferenceIdeal.Read.val_main_v5 ReferenceIdeal.Read.val_main_v4
    ReferenceIdeal.Read.val_main_v3 ReferenceIdeal.Read.val_main_v2 ReferenceIdeal.Read.val_main_v1 ReferenceIdeal.Read.val_main_v0
    ReferenceIdeal.Read.val_main_c ReferenceIdeal.Read.val_main_c_0
  rw [← gatherW_eq]

/-- The region finds, as its bias row, the reference's bias stage laid out as one row. -/
theorem b_cast (c : Dev nD) : (V m c main_v16 : S1x4096.Idx → EReal)
    = shapeCast S1x4096 (Cert.ReferenceIdeal.Read.val_main_v15 (F := Ideal) (m ((c : Thread nD τ).loc main_arg2)) (m ((c : Thread nD τ).loc main_arg4)) (m ((c : Thread nD τ).loc main_arg6))) shapeCasts_S4096_S1x4096 := by
  dsimp only [Gen.V, Gen.hostOps0]
  after_results_simp
  unfold ReferenceIdeal.Read.val_main_v15 ReferenceIdeal.Read.val_main_v14 ReferenceIdeal.Read.val_main_v13 ReferenceIdeal.Read.val_main_v12
    ReferenceIdeal.Read.val_main_v11 ReferenceIdeal.Read.val_main_v10 ReferenceIdeal.Read.val_main_v9 ReferenceIdeal.Read.val_main_v8
    ReferenceIdeal.Read.val_main_c_1 ReferenceIdeal.Read.val_main_c_2
  rw [← gatherB_eq]
  rfl

/-- … which is the reference's own one-row bias stage: both read the bias stage's entry `o` at `(0, o)`. -/
theorem b_eq (c : Dev nD) : (V m c main_v16 : S1x4096.Idx → EReal)
    = Cert.ReferenceIdeal.Read.val_main_v17 (F := Ideal) (m ((c : Thread nD τ).loc main_arg2)) (m ((c : Thread nD τ).loc main_arg4)) (m ((c : Thread nD τ).loc main_arg6)) := by
  funext i
  obtain ⟨u, o, rfl⟩ : ∃ (u : Fin 1) (o : Fin 4096), i = ix2 u o := ⟨i 0, i 1, eq_ix2 i⟩
  have hi : ReferenceIdeal.Read.idx_main_v17 (ix2 u o) = ix1 o := funext fun a => Fin.ext (by
    match a with
    | ⟨0, _⟩ => rfl)
  rw [ReferenceIdeal.Read.val_main_v17_apply, hi, b_cast, shapeCast_a_1a_apply]

end Cert.KernelIdeal.HostPrefix

end
-- ==== Proof.RefLayer.lean ====
/-
  The reference's result, read at an index, is the same linear layer.

  jnp's `einsum('bi,oi->bo')` contracts the second axis of both operands, so its entry `(r, o)` is
  `Σ s, x (r, s) · W (o, s)`; the bias vector, laid out as one row and spread over all rows, adds its entry `o`. With
  the weight and the bias row taken as the reference's own earlier stages this is `Cert.Spec.linear`.
-/
import proofs.«111824_j30528627540665_1_alg».proof.Proof.Gen.ReferenceIdeal.Read
import proofs.«111824_j30528627540665_1_alg».proof.Proof.Spec

noncomputable section

open Idealize.ShloMosaic Idealize.ShloMosaic.ValueIdx

namespace Cert.ReferenceIdeal.Layer

open Cert.ReferenceIdeal Cert.ReferenceIdeal.Read Cert.Spec

/-- The reference's last stage is the layer of the input, its weight stage, and its bias stage as one row. -/
theorem result_eq (x0 : (⟨S8192x4096, .f32⟩ : BufTy).Contents (Elt Ideal)) (x1 : (⟨S262144, .f32⟩ : BufTy).Contents (Elt Ideal))
    (x2 : (⟨S64, .f32⟩ : BufTy).Contents (Elt Ideal)) (x3 : (⟨S4096x4096, .f32⟩ : BufTy).Contents (Elt Ideal))
    (x4 : (⟨S4096, .f32⟩ : BufTy).Contents (Elt Ideal)) (x5 : (⟨S4096x4096, .i32⟩ : BufTy).Contents (Elt Ideal))
    (x6 : (⟨S4096, .i32⟩ : BufTy).Contents (Elt Ideal)) :
    val_main_v19 (F := Ideal) x0 x1 x2 x3 x4 x5 x6
      = linear x0 (val_main_v7 (F := Ideal) x1 x3 x5) (val_main_v17 (F := Ideal) x2 x4 x6) := by
  funext i
  obtain ⟨r, o, rfl⟩ : ∃ (r : Fin 8192) (o : Fin 4096), i = ix2 r o := ⟨i 0, i 1, eq_ix2 i⟩
  have hl : ∀ s : Fin 4096, lidx_main_v16 (ix2 r o) s = ix2 r s := fun s => funext fun a => Fin.ext (by
    match a with
    | ⟨0, _⟩ => rfl
    | ⟨1, _⟩ => rfl)
  have hr : ∀ s : Fin 4096, ridx_main_v16 (ix2 r o) s = ix2 o s := fun s => funext fun a => Fin.ext (by
    match a with
    | ⟨0, _⟩ => rfl
    | ⟨1, _⟩ => rfl)
  have hb : idx_main_v18 (ix2 r o) = ix2 (0 : Fin 1) o := funext fun a => Fin.ext (by
    match a with
    | ⟨0, _⟩ => rfl
    | ⟨1, _⟩ => rfl)
  rw [linear_apply, val_main_v19_apply, val_main_v16_apply, val_main_v18_apply, hb]
  simp only [hl, hr]
  rfl

end Cert.ReferenceIdeal.Layer

end
-- ==== Proof.lean ====
/-
  A hashed linear layer: the tiled kernel against `einsum('bi,oi->bo', x, W) + b`, equal over the extended reals.

  Both programs first rebuild the dense weight `W[o, i] = h_weight[idxW[o, i]] · xiW[o, i]` and the bias
  `b[o] = h_bias[idxB[o]] · xiB[o]` from the hashed tables, by the same host operations (a negative index wrapped by the
  table's length, a gather, a product with the sign array). The reference then contracts the second axis of `x` and `W`
  and adds the bias. The kernel tiles that product: on a grid of 8 × 4 × 4 points it multiplies a 1024 × 1024 block of
  `x` with the transpose of a 1024 × 1024 block of `W`, accumulates the four products of a block row in a scratch block
  set to zero at the first of them, and at the fourth writes the accumulated block plus the bias entries out. Its
  operands are narrowed to bf16 first, which over the extended reals changes nothing.

  So at entry `(r, o)` the kernel holds `((((0 + Σ₀) + Σ₁) + Σ₂) + Σ₃) + b[o]`, each `Σₖ` the sum over stretch `k` of
  1024 consecutive features of `x[r, s] · W[o, s]`, and the reference `Σ_{s < 4096} x[r, s] · W[o, s] + b[o]`. The two
  are joined by regrouping one finite sum and `0 + a = a`, which hold in every additive commutative monoid: no
  finiteness of the inputs is used, and the precondition is never opened.

  The modules: `BlockSum` (the regrouping law), `Spec` (the layer as one function of three arrays), `Pieces` and
  `Payload` (what one grid point's body leaves, and its terms at an entry), `Layer` (the running sum along the grid's
  last axis by induction on the point; the written blocks tile the result), `HostPrefix` (what the region finds in
  its three arrays), `RefLayer` (the reference's last stage at an entry). Nothing is rewritten by the idealization,
  so `preserves` is trivial.
-/
import proofs.«111824_j30528627540665_1_alg».proof.Defs
import proofs.«111824_j30528627540665_1_alg».proof.Proof.Gen.Kernel
import proofs.«111824_j30528627540665_1_alg».proof.Proof.Gen.Kernel.Skeleton
import proofs.«111824_j30528627540665_1_alg».proof.Proof.Gen.Kernel.Launch
import proofs.«111824_j30528627540665_1_alg».proof.Proof.Gen.Kernel.Points
import proofs.«111824_j30528627540665_1_alg».proof.Proof.Gen.Kernel.Frame
import proofs.«111824_j30528627540665_1_alg».proof.Proof.Gen.KernelIdeal
import proofs.«111824_j30528627540665_1_alg».proof.Proof.Gen.KernelIdeal.Skeleton
import proofs.«111824_j30528627540665_1_alg».proof.Proof.Gen.KernelIdeal.Launch
import proofs.«111824_j30528627540665_1_alg».proof.Proof.Gen.KernelIdeal.Points
import proofs.«111824_j30528627540665_1_alg».proof.Proof.Gen.KernelIdeal.Frame
import proofs.«111824_j30528627540665_1_alg».proof.Proof.Gen.ReferenceIdeal
import proofs.«111824_j30528627540665_1_alg».proof.Proof.Gen.Pre_finite_inputs
import proofs.«111824_j30528627540665_1_alg».proof.Proof.Gen.KernelIdeal.Value
import proofs.«111824_j30528627540665_1_alg».proof.Proof.Gen.ReferenceIdeal.Run
import proofs.«111824_j30528627540665_1_alg».proof.Proof.Gen.ReferenceIdeal.Read
import proofs.«111824_j30528627540665_1_alg».proof.Proof.Layer
import proofs.«111824_j30528627540665_1_alg».proof.Proof.HostPrefix
import proofs.«111824_j30528627540665_1_alg».proof.Proof.RefLayer
import Idealize.ShloMosaic.Adequacy
import Idealize.ShloMosaic.Init

noncomputable section

namespace Cert.Proof

open Idealize.ShloMosaic Idealize.ShloMosaic.TcCoe Idealize.SL.Sem

/-- The reference's last stage, taken at the arrays the kernel is launched with, is what the kernel's result array
    holds: the same layer of the input, the rebuilt weight and the rebuilt bias row. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      = Cert.KernelIdeal.Layer.result m c := by
  rw [Cert.ReferenceIdeal.Layer.result_eq]
  show _ = Cert.Spec.linear (Cert.KernelIdeal.Gen.V m c Cert.KernelIdeal.main_v17) (Cert.KernelIdeal.Gen.V m c Cert.KernelIdeal.main_v18)
    (Cert.KernelIdeal.Gen.V m c Cert.KernelIdeal.main_v16)
  rw [Cert.KernelIdeal.HostPrefix.x_eq, Cert.KernelIdeal.HostPrefix.w_eq, Cert.KernelIdeal.HostPrefix.b_eq]

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the layer of those arguments. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact (Cert.ReferenceIdeal.Read.val_main_v19_eq _ _ _ _ _ _ _).trans (result_eq m c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
